-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x4096 : Shape := ⟨3, ![64, 64, 4096]⟩
abbrev S64x64x63 : Shape := ⟨3, ![64, 64, 63]⟩
abbrev S_ : Shape := ⟨0, ![]⟩

class Facts : Prop where
  bcast_S_S64x64x4096 : S_.BroadcastsInDim S64x64x4096 (![] : Fin 0 → Fin S64x64x4096.rank)
  reducesTo_S64x64x4096_S_d0_1_2 : S64x64x4096.ReducesTo [0, 1, 2] S_
  h_S_ : 0 < S_.numel
  bcast_S_S64x64x63 : S_.BroadcastsInDim S64x64x63 (![] : Fin 0 → Fin S64x64x63.rank)
  reducesTo_S64x64x63_S_d0_1_2 : S64x64x63.ReducesTo [0, 1, 2] S_

variable [Facts]

def fn {F : FTy → Type} [FloatOps F] (main_arg0 : FVec F S64x64x4096 .f32) (main_arg1 : FVec F S64x64x63 .f32) (main_arg2 : FVec F S64x64x63 .f32) : IVec S_ 1 :=
  let main_v0 : FVec F S64x64x4096 .f32 := Host.absf main_arg0
  let main_cst : FVec F S_ .f32 := constant S_ .f32 0x7F800000#32
  let main_v1 : FVec F S64x64x4096 .f32 := broadcastInDim S64x64x4096 ![] bcast_S_S64x64x4096 main_cst
  let main_v2 : IVec S64x64x4096 1 := cmpf .olt main_v0 main_v1
  let main_c : IVec S_ 1 := constantI S_ 1 1#1
  let main_v3 : IVec S_ 1 := (fun x v => Host.reduce IntOp.andi x v reducesTo_S64x64x4096_S_d0_1_2 h_S_) main_v2 main_c
  let main_v4 : FVec F S64x64x63 .f32 := Host.absf main_arg1
  let main_cst_0 : FVec F S_ .f32 := constant S_ .f32 0x7F800000#32
  let main_v5 : FVec F S64x64x63 .f32 := broadcastInDim S64x64x63 ![] bcast_S_S64x64x63 main_cst_0
  let main_v6 : IVec S64x64x63 1 := cmpf .olt main_v4 main_v5
  let main_c_1 : IVec S_ 1 := constantI S_ 1 1#1
  let main_v7 : IVec S_ 1 := (fun x v => Host.reduce IntOp.andi x v reducesTo_S64x64x63_S_d0_1_2 h_S_) main_v6 main_c_1
  let main_v8 : IVec S_ 1 := andi main_v3 main_v7
  let main_v9 : FVec F S64x64x63 .f32 := Host.absf main_arg2
  let main_cst_2 : FVec F S_ .f32 := constant S_ .f32 0x7F800000#32
  let main_v10 : FVec F S64x64x63 .f32 := broadcastInDim S64x64x63 ![] bcast_S_S64x64x63 main_cst_2
  let main_v11 : IVec S64x64x63 1 := cmpf .olt main_v9 main_v10
  let main_c_3 : IVec S_ 1 := constantI S_ 1 1#1
  let main_v12 : IVec S_ 1 := (fun x v => Host.reduce IntOp.andi x v reducesTo_S64x64x63_S_d0_1_2 h_S_) main_v11 main_c_3
  let main_v13 : IVec S_ 1 := andi main_v8 main_v12
  main_v13
-- ==== Kernel.lean ====
abbrev S64x64x4096 : Shape := ⟨3, ![64, 64, 4096]⟩
abbrev S64x64x63 : Shape := ⟨3, ![64, 64, 63]⟩
abbrev S4096x4096 : Shape := ⟨2, ![4096, 4096]⟩
abbrev S4096x63 : Shape := ⟨2, ![4096, 63]⟩
abbrev S4096x4159 : Shape := ⟨2, ![4096, 4159]⟩
abbrev S256x4159 : Shape := ⟨2, ![256, 4159]⟩
abbrev S256x4096 : Shape := ⟨2, ![256, 4096]⟩

abbrev nBuf : Space → Nat
  | .hbm => 11
  | .vmem => 8
  | .smem => 0
  | _ => 0

abbrev bufTy : (tb : Table) → Fin (tcTables nBuf tb) → BufTy
  | .hbm, ⟨0, _⟩ => ⟨S64x64x4096, .f32⟩
  | .hbm, ⟨1, _⟩ => ⟨S64x64x63, .f32⟩
  | .hbm, ⟨2, _⟩ => ⟨S64x64x63, .f32⟩
  | .hbm, ⟨3, _⟩ => ⟨S4096x4096, .f32⟩
  | .hbm, ⟨4, _⟩ => ⟨S4096x63, .f32⟩
  | .hbm, ⟨5, _⟩ => ⟨S4096x63, .f32⟩
  | .hbm, ⟨6, _⟩ => ⟨S4096x4159, .f32⟩
  | .hbm, ⟨7, _⟩ => ⟨S4096x4096, .f32⟩
  | .hbm, ⟨8, _⟩ => ⟨S4096x4159, .f32⟩
  | .hbm, ⟨9, _⟩ => ⟨S4096x4096, .f32⟩
  | .hbm, ⟨10, _⟩ => ⟨S64x64x4096, .f32⟩
  | .local _ .vmem, ⟨0, _⟩ => ⟨S256x4159, .f32⟩
  | .local _ .vmem, ⟨1, _⟩ => ⟨S256x4159, .f32⟩
  | .local _ .vmem, ⟨2, _⟩ => ⟨S256x4096, .f32⟩
  | .local _ .vmem, ⟨3, _⟩ => ⟨S256x4096, .f32⟩
  | .local _ .vmem, ⟨4, _⟩ => ⟨S256x4159, .f32⟩
  | .local _ .vmem, ⟨5, _⟩ => ⟨S256x4159, .f32⟩
  | .local _ .vmem, ⟨6, _⟩ => ⟨S256x4096, .f32⟩
  | .local _ .vmem, ⟨7, _⟩ => ⟨S256x4096, .f32⟩
  | _, _ => ⟨S64x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4159 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4159 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S64x64x4096_S4096x4096 : S64x64x4096.ShapeCasts S4096x4096
  shapeCasts_S64x64x63_S4096x63 : S64x64x63.ShapeCasts S4096x63
  concatenates_S4096x63_S4096x4096_S4096x4159_d1 : Shape.Concatenates [S4096x63, S4096x4096] S4096x4159 1
  inb_S256x4159_S256x4159_0_0 : ∀ a, (![0, 0] : Fin 2 → Nat) a + S256x4159.size a ≤ S256x4159.size a
  h_S256x4159 : 0 < S256x4159.numel
  shapeCasts_S256x4159_S256x4159 : S256x4159.ShapeCasts S256x4159
  rotates_S256x4159_d1 : S256x4159.Rotates 1 none
  iota_S256x4159_d1_w32 : S256x4159.Iotas .tc 32 [1]
  slices_S256x4159_o0_63_S256x4096 : S256x4159.Slices ![0, 63] S256x4096
  inb_S256x4096_S256x4096_0_0 : ∀ a, (![0, 0] : Fin 2 → Nat) a + S256x4096.size a ≤ S256x4096.size a
  h_S256x4096 : 0 < S256x4096.numel
  shapeCasts_S4096x4096_S64x64x4096 : S4096x4096.ShapeCasts S64x64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4159.size a ≤ S4096x4159.size a
  hwx0_0 : ∀ i : grid0.Coords, EltTy.bits .f32 = 32 ∨ (Rect.block (s := S4096x4159) S256x4159.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4159.size a ≤ S4096x4159.size a
  hwx1_0 : ∀ i : grid1.Coords, EltTy.bits .f32 = 32 ∨ (Rect.block (s := S4096x4159) S256x4159.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)

variable [Facts₀]

abbrev win0_0 : Pipeline.Window sig grid0 :=
  Pipeline.Window.ofSpec (Memref.whole main_v3) S256x4159.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S256x4159.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S64x64x4096 : Shape := ⟨3, ![64, 64, 4096]⟩
abbrev S64x64x63 : Shape := ⟨3, ![64, 64, 63]⟩
abbrev S64x64x4159 : Shape := ⟨3, ![64, 64, 4159]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S64x64x4096, .f32⟩
  | .hbm, ⟨1, _⟩ => ⟨S64x64x63, .f32⟩
  | .hbm, ⟨2, _⟩ => ⟨S64x64x63, .f32⟩
  | .hbm, ⟨3, _⟩ => ⟨S64x64x4159, .f32⟩
  | .hbm, ⟨4, _⟩ => ⟨S_, .f32⟩
  | .hbm, ⟨5, _⟩ => ⟨S_, .f32⟩
  | .hbm, ⟨6, _⟩ => ⟨S64x64x4096, .f32⟩
  | .hbm, ⟨7, _⟩ => ⟨S64x64x4159, .f32⟩
  | .hbm, ⟨8, _⟩ => ⟨S64x64x4159, .f32⟩
  | .hbm, ⟨9, _⟩ => ⟨S_, .f32⟩
  | .hbm, ⟨10, _⟩ => ⟨S_, .f32⟩
  | .hbm, ⟨11, _⟩ => ⟨S64x64x4096, .f32⟩
  | .hbm, ⟨12, _⟩ => ⟨S64x64x4096, .f32⟩
  | _, _ => ⟨S64x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  concatenates_S64x64x63_S64x64x4096_S64x64x4159_d2 : Shape.Concatenates [S64x64x63, S64x64x4096] S64x64x4159 2
  bcast_S_S_ : S_.BroadcastsInDim S_ (![] : Fin 0 → Fin S_.rank)
  reduceWindows_S64x64x4159_S64x64x4096_w1s1p0_0_w1s1p0_0_w64s1p0_0 : S64x64x4159.ReduceWindows (![1, 1, 64] : Fin 3 → Nat) ![1, 1, 1] ![0, 0, 0] ![0, 0, 0] S64x64x4096
  h_S_ : 0 < S_.numel

variable [Facts₀]

class Facts : Prop extends Facts₀ where

variable [Facts]
-- ==== Proof.Cascade.lean ====
/-
  The mathematics of the certificate, on one row of extended reals and free of both programs.

  A row is a function of the position on the time axis. `winSup g t` is the largest of the 64 entries
  `g t, …, g (t + 63)`: a window maximum. `joined p g` puts 63 carried entries `p 0, …, p 62` in front of a
  row `g`. The cascade is a window maximum of the carried-then-fresh samples, then a window MINIMUM of the
  carried-then-maxima row, the minimum written as the negated maximum of the negated row. On the extended
  reals negation is an order-reversing involution, so nothing here needs finiteness.

  Three facts about suprema of finite families are proved once: a supremum over `2 s` consecutive positions
  is the larger of the suprema over its two halves (what makes log-many shift-and-max rounds a window
  maximum); a left fold of `max` from the bottom element is the supremum of the folded family (how a
  reduce-window from `-∞` reads); and a supremum over `Fin n` is one over `range n`.
-/
import Idealize.ShloMosaic.PureOps.Ideal
import Idealize.ShloMosaic.Lib.ValueIdx

noncomputable section

namespace Cert.Cascade

open Idealize.ShloMosaic Idealize.ShloMosaic.ValueIdx

/-! ## One row -/

/-- The largest of the 64 entries of the row `g` from position `t` on. -/
def winSup (g : ℕ → EReal) (t : ℕ) : EReal := (Finset.range 64).sup fun k => g (t + k)

/-- The row `g` with the 63 carried entries of `p` in front of it. -/
def joined (p g : ℕ → EReal) (u : ℕ) : EReal := if u < 63 then p u else g (u - 63)

/-- Window maximum of the carried-then-fresh samples, then window minimum (negate, maximum, negate) of the
    carried-then-maxima row. -/
def cascade (p q x : ℕ → EReal) (t : ℕ) : EReal :=
  -winSup (fun u => -joined q (winSup (joined p x)) u) t

/-- A window maximum only looks at its 64 positions. -/
theorem winSup_congr {g g' : ℕ → EReal} {t : ℕ} (h : ∀ k, k < 64 → g (t + k) = g' (t + k)) :
    winSup g t = winSup g' t :=
  Finset.sup_congr rfl fun k hk => h k (Finset.mem_range.mp hk)

/-! ## Rows of the arrays -/

/-- Row `(b, c)` of a rank-3 array as a total function of the position on the last axis (bottom past the end:
    no window of the certificate reaches there). -/
def row3 {n : ℕ} (a : (⟨3, ![64, 64, n]⟩ : Shape).Idx → EReal) (b c : Fin 64) (u : ℕ) : EReal :=
  if h : u < n then a (ix3 b c ⟨u, h⟩) else ⊥

/-- Row `r` of a matrix, the same way. -/
def row2 {R n : ℕ} (a : (⟨2, ![R, n]⟩ : Shape).Idx → EReal) (r : Fin R) (u : ℕ) : EReal :=
  if h : u < n then a (ix2 r ⟨u, h⟩) else ⊥

theorem row3_of_lt {n : ℕ} (a : (⟨3, ![64, 64, n]⟩ : Shape).Idx → EReal) (b c : Fin 64) {u : ℕ} (h : u < n) :
    row3 a b c u = a (ix3 b c ⟨u, h⟩) := dif_pos h

theorem row2_of_lt {R n : ℕ} (a : (⟨2, ![R, n]⟩ : Shape).Idx → EReal) (r : Fin R) {u : ℕ} (h : u < n) :
    row2 a r u = a (ix2 r ⟨u, h⟩) := dif_pos h

/-- What both programs compute: at `(b, c, t)` the cascade of row `(b, c)` of the samples `x`, the carried
    samples `p` and the carried maxima `q`. -/
def result (x : (⟨3, ![64, 64, 4096]⟩ : Shape).Idx → EReal) (p q : (⟨3, ![64, 64, 63]⟩ : Shape).Idx → EReal) :
    (⟨3, ![64, 64, 4096]⟩ : Shape).Idx → EReal :=
  fun i => cascade (row3 p (i 0) (i 1)) (row3 q (i 0) (i 1)) (row3 x (i 0) (i 1)) (i 2).val

/-! ## Suprema of finite families -/

/-- The supremum over `2 s` consecutive positions is the larger of the suprema over its halves. -/
theorem sup_range_add (g : ℕ → EReal) (s : ℕ) :
    max ((Finset.range s).sup g) ((Finset.range s).sup fun d => g (s + d)) = (Finset.range (s + s)).sup g := by
  rw [Finset.range_add, Finset.sup_union, Finset.sup_map]
  rfl

/-- A left fold of `max` over a list is the start value joined with the supremum of the folded family. -/
theorem foldl_max_eq_sup {ι : Type} [DecidableEq ι] (f : ι → EReal) :
    ∀ (l : List ι) (v : EReal), l.foldl (fun r n => max r (f n)) v = max v (l.toFinset.sup f)
  | [], v => by simp
  | a :: l, v => by
    rw [List.foldl_cons, foldl_max_eq_sup f l, List.toFinset_cons, Finset.sup_insert, max_assoc]

/-- A supremum over `Fin n` of a family that only reads the value is the supremum over `range n`. -/
theorem sup_univ_fin (n : ℕ) (h : ℕ → EReal) :
    (Finset.univ : Finset (Fin n)).sup (fun i => h i.val) = (Finset.range n).sup h := by
  apply le_antisymm
  · exact Finset.sup_le fun i _ => Finset.le_sup (f := h) (Finset.mem_range.mpr i.isLt)
  · exact Finset.sup_le fun k hk =>
      Finset.le_sup (f := fun i : Fin n => h i.val) (Finset.mem_univ (⟨k, Finset.mem_range.mp hk⟩ : Fin n))

end Cert.Cascade

end
-- ==== Proof.RefWindow.lean ====
/-
  The reference program, read at an index.

  A `reduce_window` with body `maximum`, window `[1, 1, 64]`, unit strides and no padding, from the initial value
  `-∞`, is at `(b, c, t)` the left fold of `max` from the bottom element over the 64 window positions
  `(b, c, t + n)`: the supremum of those entries, that is the window maximum of row `(b, c)`. A concatenation along
  the time axis puts the first operand's 63 entries in front of the second's row; `negate` is the negation of the
  extended reals. Composed, the reference's result at `(b, c, t)` is the cascade of the arguments' rows `(b, c)`.
-/
import proofs.«141203_j2267742732763_1_alg».proof.Proof.Cascade
import proofs.«141203_j2267742732763_1_alg».proof.Proof.Gen.ReferenceIdeal.Read
import Idealize.ShloMosaic.Lib.Pipeline.Value

noncomputable section

namespace Cert.ReferenceIdeal.Window

open Idealize.ShloMosaic Idealize.ShloMosaic.ValueIdx Cert.ReferenceIdeal Cert.ReferenceIdeal.Gen Cert.Cascade

/-- The window's shape. -/
abbrev Wd : Shape := ⟨3, ![1, 1, 64]⟩

/-- Window position `n` is `(0, 0, n)`. -/
theorem wd_coords (n : Fin Wd.numel) :
    (Wd.rowMajor.symm n 0).val = 0 ∧ (Wd.rowMajor.symm n 1).val = 0 ∧ (Wd.rowMajor.symm n 2).val = n.val := by
  have h0 : (Wd.rowMajor.symm n 0).val < 1 := (Wd.rowMajor.symm n 0).isLt
  have h1 : (Wd.rowMajor.symm n 1).val < 1 := (Wd.rowMajor.symm n 1).isLt
  have e := Shape.rowMajor_val_three (Wd.rowMajor.symm n)
  rw [Equiv.apply_symm_apply] at e
  have e' : n.val = ((Wd.rowMajor.symm n 0).val * 1 + (Wd.rowMajor.symm n 1).val) * 64 + (Wd.rowMajor.symm n 2).val := e
  omega

/-- A left fold of `max` over a family given entry by entry. -/
theorem foldl_max_family {ι : Type} [DecidableEq ι] (l : List ι) (g f : ι → EReal) (hgf : ∀ n, g n = f n) (v : EReal) :
    l.foldl (fun r n => max r (g n)) v = max v (l.toFinset.sup f) := by
  obtain rfl : g = f := funext hgf
  exact foldl_max_eq_sup g l v

theorem wd_numel : Wd.numel = 64 := by decide

/-- The reduce-window of the certificate at `(b, c, t)`, from an initial value that is the bottom element: the
    window maximum of row `(b, c)` from `t`. -/
theorem reduceWindow_apply (a : FVec Ideal S64x64x4159 .f32) (init : FVec Ideal S_ .f32)
    (h0 : init (Shape.Idx.first h_S_) = ⊥) (b c : Fin 64) (t : Fin 4096) :
    Host.reduceWindow FloatOps.maximumf ![1, 1, 64] ![1, 1, 1] ![0, 0, 0] ![0, 0, 0] a init
        reduceWindows_S64x64x4159_S64x64x4096_w1s1p0_0_w1s1p0_0_w64s1p0_0 h_S_ (ix3 b c t)
      = winSup (row3 a b c) t.val := by
  have ht : t.val < 4096 := t.isLt
  unfold Host.reduceWindow
  dsimp only
  rw [h0]
  refine (foldl_max_family _ _ (fun n : Fin Wd.numel => row3 a b c (t.val + n.val)) ?_ ⊥).trans ?_
  · intro n
    obtain ⟨e0, e1, e2⟩ := wd_coords n
    have hn : n.val < 64 := lt_of_lt_of_eq n.isLt wd_numel
    have hb : b.val < 64 := b.isLt
    have hc : c.val < 64 := c.isLt
    rw [row3_of_lt a b c (show t.val + n.val < 4159 by omega)]
    split
    · refine congrArg a (funext fun d => Fin.ext ?_)
      match d with
      | ⟨0, _⟩ => show b.val * 1 + (Wd.rowMajor.symm n 0).val - 0 = b.val; omega
      | ⟨1, _⟩ => show c.val * 1 + (Wd.rowMajor.symm n 1).val - 0 = c.val; omega
      | ⟨2, _⟩ => show t.val * 1 + (Wd.rowMajor.symm n 2).val - 0 = t.val + n.val; omega
    · rename_i hin
      exfalso
      apply hin
      intro d
      match d with
      | ⟨0, _⟩ => show 0 ≤ b.val * 1 + (Wd.rowMajor.symm n 0).val ∧ b.val * 1 + (Wd.rowMajor.symm n 0).val - 0 < 64; omega
      | ⟨1, _⟩ => show 0 ≤ c.val * 1 + (Wd.rowMajor.symm n 1).val ∧ c.val * 1 + (Wd.rowMajor.symm n 1).val - 0 < 64; omega
      | ⟨2, _⟩ => show 0 ≤ t.val * 1 + (Wd.rowMajor.symm n 2).val ∧ t.val * 1 + (Wd.rowMajor.symm n 2).val - 0 < 4159; omega
  · rw [List.toFinset_finRange, max_eq_right bot_le, sup_univ_fin Wd.numel (fun k => row3 a b c (t.val + k)), wd_numel]
    rfl

/-- The printed initial value `0xFF800000` is `-∞`, the bottom element. -/
theorem neg_inf_bits : Ideal.ofBits .f32 0xFF800000#32 = ⊥ := by simp [Ideal.ofBits, Ideal.ieee]

theorem init1_bot : Read.val_main_v1 (F := Ideal) (Shape.Idx.first h_S_) = ⊥ := neg_inf_bits
theorem init5_bot : Read.val_main_v5 (F := Ideal) (Shape.Idx.first h_S_) = ⊥ := neg_inf_bits

/-- A row of the concatenation along the time axis: the second operand's row with the first's 63 entries in front. -/
theorem row3_concat (a : FVec Ideal S64x64x63 .f32) (a' : FVec Ideal S64x64x4096 .f32) (b c : Fin 64) {u : ℕ} (hu : u < 4159) :
    row3 (concatenate S64x64x4159 2 [⟨S64x64x63, a⟩, ⟨S64x64x4096, a'⟩] concatenates_S64x64x63_S64x64x4096_S64x64x4159_d2) b c u
      = joined (row3 a b c) (row3 a' b c) u := by
  unfold joined
  rw [row3_of_lt _ b c hu]
  by_cases h63 : u < 63
  · rw [if_pos h63, row3_of_lt a b c h63]
    exact concatenate_pair_apply_left (t := S64x64x4159) (s₁ := S64x64x63) (s₂ := S64x64x4096) (2 : Fin 3) a a'
      concatenates_S64x64x63_S64x64x4096_S64x64x4159_d2 (ix3 b c ⟨u, hu⟩) rfl (ix3 b c ⟨u, h63⟩) (by
        intro d
        match d with
        | ⟨0, _⟩ => rfl
        | ⟨1, _⟩ => rfl
        | ⟨2, _⟩ => rfl)
  · rw [if_neg h63, row3_of_lt a' b c (show u - 63 < 4096 by omega)]
    exact concatenate_pair_apply_right (t := S64x64x4159) (s₁ := S64x64x63) (s₂ := S64x64x4096) (2 : Fin 3) a a'
      concatenates_S64x64x63_S64x64x4096_S64x64x4159_d2 (ix3 b c ⟨u, hu⟩) rfl rfl (ix3 b c ⟨u - 63, by omega⟩) (by
        intro d hd
        match d with
        | ⟨0, _⟩ => rfl
        | ⟨1, _⟩ => rfl
        | ⟨2, _⟩ => exact absurd rfl hd) (by show u - 63 + 63 = u; omega)

/-- THE REFERENCE'S RESULT is the cascade of the arguments' rows, index by index. -/
theorem value_eq (x : FVec Ideal S64x64x4096 .f32) (p q : FVec Ideal S64x64x63 .f32) :
    Read.val_main_v7 (F := Ideal) x p q = result x p q := by
  funext i
  obtain ⟨b, c, t, rfl⟩ : ∃ (b c : Fin 64) (t : Fin 4096), i = ix3 b c t := ⟨i 0, i 1, i 2, eq_ix3 i⟩
  have ht : t.val < 4096 := t.isLt
  show -(Read.val_main_v6 (F := Ideal) x p q (ix3 b c t)) = cascade (row3 p b c) (row3 q b c) (row3 x b c) t.val
  unfold Read.val_main_v6 cascade
  rw [reduceWindow_apply _ _ init5_bot]
  refine congrArg Neg.neg (winSup_congr fun k hk => ?_)
  have hu : t.val + k < 4159 := by omega
  rw [row3_of_lt _ b c hu]
  show -(Read.val_main_v3 (F := Ideal) x p q (ix3 b c ⟨t.val + k, hu⟩)) = _
  refine congrArg Neg.neg ?_
  rw [← row3_of_lt (Read.val_main_v3 (F := Ideal) x p q) b c hu]
  unfold Read.val_main_v3
  rw [row3_concat _ _ b c hu]
  unfold joined
  by_cases h63 : t.val + k < 63
  · rw [if_pos h63, if_pos h63]
  · rw [if_neg h63, if_neg h63, row3_of_lt _ b c (show t.val + k - 63 < 4096 by omega)]
    unfold Read.val_main_v2
    rw [reduceWindow_apply _ _ init1_bot]
    refine winSup_congr fun k' hk' => ?_
    unfold Read.val_main_v0
    exact row3_concat _ _ b c (show t.val + k - 63 + k' < 4159 by omega)

end Cert.ReferenceIdeal.Window

end
-- ==== Proof.Rows.lean ====
/-
  The kernel program's arrays, row by row, free of the pipeline.

  The kernel side works on matrices of 4096 rows: row `64 b + c` of a matrix is row `(b, c)` of the rank-3
  array it is a reshape of (same row-major position), and a row of a concatenation along the time axis is the
  second operand's row with the first operand's 63 entries in front. So if the first region's result matrix holds
  at `(R, t)` the window maximum of row `R` of the joined samples, and the second region's holds at `(R, t)` the
  window minimum of row `R` of the carried maxima joined with the first result, then the final reshape holds at
  `(b, c, t)` the cascade of the arguments' rows `(b, c)`: every window stays inside its row (`t + 63 < 4159`), which
  is all the row functions' values past the end could have mattered for.
-/
import proofs.«141203_j2267742732763_1_alg».proof.Proof.Cascade
import Idealize.ShloMosaic.Lib.Pipeline.Value

noncomputable section

namespace Cert.Cascade

open Idealize.ShloMosaic Idealize.ShloMosaic.ValueIdx

/-- The matrix row that holds row `(b, c)` of a rank-3 array. -/
def rowOf (b c : Fin 64) : Fin 4096 := ⟨b.val * 64 + c.val, by have := b.isLt; have := c.isLt; omega⟩

/-- Every matrix row is some `(b, c)`'s. -/
theorem exists_rowOf (R : Fin 4096) : ∃ b c : Fin 64, R = rowOf b c :=
  ⟨⟨R.val / 64, by have := R.isLt; omega⟩, ⟨R.val % 64, by omega⟩, Fin.ext (by show R.val = R.val / 64 * 64 + R.val % 64; omega)⟩

/-- A row of the reshape `[64, 64, n] → [4096, n]` is the rank-3 array's row. -/
theorem row2_reshape {n : ℕ} (a : (⟨3, ![64, 64, n]⟩ : Shape).Idx → EReal)
    (h : (⟨3, ![64, 64, n]⟩ : Shape).ShapeCasts ⟨2, ![4096, n]⟩) (b c : Fin 64) (u : ℕ) :
    row2 (shapeCast ⟨2, ![4096, n]⟩ a h) (rowOf b c) u = row3 a b c u := by
  unfold row2 row3
  by_cases hu : u < n
  · rw [dif_pos hu, dif_pos hu]
    refine shapeCast_apply a h (ix2 (rowOf b c) ⟨u, hu⟩) (ix3 b c ⟨u, hu⟩) ?_
    rw [Shape.rowMajor_val_three, Shape.rowMajor_val_two]
    rfl
  · rw [dif_neg hu, dif_neg hu]

/-- The same, as an equality of row functions. -/
theorem row2_reshape_fun {n : ℕ} (a : (⟨3, ![64, 64, n]⟩ : Shape).Idx → EReal)
    (h : (⟨3, ![64, 64, n]⟩ : Shape).ShapeCasts ⟨2, ![4096, n]⟩) (b c : Fin 64) :
    row2 (shapeCast ⟨2, ![4096, n]⟩ a h) (rowOf b c) = row3 a b c :=
  funext fun u => row2_reshape a h b c u

/-- The reshape back `[4096, n] → [64, 64, n]` at `(b, c, t)` is the matrix at `(64 b + c, t)`. -/
theorem reshape_back_apply {n : ℕ} (a : (⟨2, ![4096, n]⟩ : Shape).Idx → EReal)
    (h : (⟨2, ![4096, n]⟩ : Shape).ShapeCasts ⟨3, ![64, 64, n]⟩) (b c : Fin 64) (t : Fin n) :
    shapeCast ⟨3, ![64, 64, n]⟩ a h (ix3 b c t) = a (ix2 (rowOf b c) t) := by
  refine shapeCast_apply a h (ix3 b c t) (ix2 (rowOf b c) t) ?_
  rw [Shape.rowMajor_val_three, Shape.rowMajor_val_two]
  rfl

/-- A row of a concatenation of a 63-column and a 4096-column matrix along the columns: the second's row with
    the first's 63 entries in front. -/
theorem row2_concat {R : ℕ} (a : (⟨2, ![R, 63]⟩ : Shape).Idx → EReal) (b : (⟨2, ![R, 4096]⟩ : Shape).Idx → EReal)
    (h : Shape.Concatenates [(⟨2, ![R, 63]⟩ : Shape), ⟨2, ![R, 4096]⟩] ⟨2, ![R, 4159]⟩ 1) (r : Fin R) {u : ℕ} (hu : u < 4159) :
    row2 (concatenate ⟨2, ![R, 4159]⟩ 1 [⟨⟨2, ![R, 63]⟩, a⟩, ⟨⟨2, ![R, 4096]⟩, b⟩] h) r u = joined (row2 a r) (row2 b r) u := by
  unfold joined
  rw [row2_of_lt _ r hu]
  by_cases h63 : u < 63
  · rw [if_pos h63, row2_of_lt a r h63]
    exact concatenate_pair_apply_left (t := ⟨2, ![R, 4159]⟩) (s₁ := ⟨2, ![R, 63]⟩) (s₂ := ⟨2, ![R, 4096]⟩) (1 : Fin 2) a b h
      (ix2 r ⟨u, hu⟩) rfl (ix2 r ⟨u, h63⟩) (by
        intro d
        match d with
        | ⟨0, _⟩ => rfl
        | ⟨1, _⟩ => rfl)
  · rw [if_neg h63, row2_of_lt b r (show u - 63 < 4096 by omega)]
    exact concatenate_pair_apply_right (t := ⟨2, ![R, 4159]⟩) (s₁ := ⟨2, ![R, 63]⟩) (s₂ := ⟨2, ![R, 4096]⟩) (1 : Fin 2) a b h
      (ix2 r ⟨u, hu⟩) rfl rfl (ix2 r ⟨u - 63, by omega⟩) (by
        intro d hd
        match d with
        | ⟨0, _⟩ => rfl
        | ⟨1, _⟩ => exact absurd rfl hd) (by show u - 63 + 63 = u; omega)

/-- THE KERNEL PROGRAM'S RESULT, from what its two regions leave: `v4` the window maxima of the rows of the
    joined samples, `v6` the window minima of the rows of the carried maxima joined with `v4`; the result is the
    reshape of `v6`. -/
theorem result_of_matrices
    (x : (⟨3, ![64, 64, 4096]⟩ : Shape).Idx → EReal) (p q : (⟨3, ![64, 64, 63]⟩ : Shape).Idx → EReal)
    (hx : (⟨3, ![64, 64, 4096]⟩ : Shape).ShapeCasts ⟨2, ![4096, 4096]⟩)
    (hp : (⟨3, ![64, 64, 63]⟩ : Shape).ShapeCasts ⟨2, ![4096, 63]⟩)
    (hc : Shape.Concatenates [(⟨2, ![4096, 63]⟩ : Shape), ⟨2, ![4096, 4096]⟩] ⟨2, ![4096, 4159]⟩ 1)
    (hb : (⟨2, ![4096, 4096]⟩ : Shape).ShapeCasts ⟨3, ![64, 64, 4096]⟩)
    (v4 v6 : (⟨2, ![4096, 4096]⟩ : Shape).Idx → EReal)
    (h4 : ∀ (R : Fin 4096) (t : Fin 4096), v4 (ix2 R t)
      = winSup (row2 (concatenate ⟨2, ![4096, 4159]⟩ 1
          [⟨⟨2, ![4096, 63]⟩, shapeCast ⟨2, ![4096, 63]⟩ p hp⟩, ⟨⟨2, ![4096, 4096]⟩, shapeCast ⟨2, ![4096, 4096]⟩ x hx⟩] hc) R) t.val)
    (h6 : ∀ (R : Fin 4096) (t : Fin 4096), v6 (ix2 R t)
      = -winSup (fun u => -row2 (concatenate ⟨2, ![4096, 4159]⟩ 1
          [⟨⟨2, ![4096, 63]⟩, shapeCast ⟨2, ![4096, 63]⟩ q hp⟩, ⟨⟨2, ![4096, 4096]⟩, v4⟩] hc) R u) t.val) :
    shapeCast ⟨3, ![64, 64, 4096]⟩ v6 hb = result x p q := by
  funext i
  obtain ⟨b, c, t, rfl⟩ : ∃ (b c : Fin 64) (t : Fin 4096), i = ix3 b c t := ⟨i 0, i 1, i 2, eq_ix3 i⟩
  have ht : t.val < 4096 := t.isLt
  rw [reshape_back_apply, h6]
  show _ = cascade (row3 p b c) (row3 q b c) (row3 x b c) t.val
  unfold cascade
  refine congrArg Neg.neg (winSup_congr fun k hk => congrArg Neg.neg ?_)
  rw [row2_concat _ _ hc _ (show t.val + k < 4159 by omega), row2_reshape_fun]
  unfold joined
  by_cases h63 : t.val + k < 63
  · rw [if_pos h63, if_pos h63]
  · rw [if_neg h63, if_neg h63, row2_of_lt v4 _ (show t.val + k - 63 < 4096 by omega), h4]
    refine winSup_congr fun k' hk' => ?_
    show row2 _ (rowOf b c) (t.val + k - 63 + k') = joined (row3 p b c) (row3 x b c) (t.val + k - 63 + k')
    rw [row2_concat _ _ hc _ (show t.val + k - 63 + k' < 4159 by omega), row2_reshape_fun, row2_reshape_fun]

end Cert.Cascade

end
-- ==== Proof.ShiftMax.lean ====
/-
  The kernel body's arithmetic, read at an index.

  Both kernels run six rounds on a block of 256 rows of 4159 entries. Round `s` (`s` = 1, 2, 4, 8, 16, 32)
  replaces entry `i` of every row by the larger of itself and entry `i - s`; the rotation that fetches entry
  `i - s` wraps around the row's end for `i < s`, and there a finite filler stands in instead. After rounds of
  total reach `s`, entry `B + s - 1` of a row is the largest of the `s` entries from `B` on — for every window
  start `B` whose window lies inside the row — because a supremum over `2 s` consecutive entries is the larger
  of the suprema over its halves. The filler only ever reaches entries `i < s - 1`, and the stored slice keeps
  entries 63 … 4158 of the rows after reach 64: entry `t` of the stored row is the window maximum from `t`.
  The second kernel negates its block first and its result last.
-/
import proofs.«141203_j2267742732763_1_alg».proof.Proof.Cascade
import proofs.«141203_j2267742732763_1_alg».proof.Proof.Gen.KernelIdeal.Skeleton
import Idealize.ShloMosaic.Lib.KernelVsHost
import Idealize.ShloMosaic.Lib.Pipeline.Value

noncomputable section

namespace Cert.KernelIdeal.Rounds

open Idealize.ShloMosaic Idealize.ShloMosaic.ValueIdx Cert.KernelIdeal Cert.KernelIdeal.Gen Cert.Cascade

/-- One round: every entry joined with the entry `s` places before it, the filler where that place is before the
    row's start. -/
def round (s : ℕ) (z : FVec Ideal S256x4159 .f32) : FVec Ideal S256x4159 .f32 :=
  maximumf z (select (cmpi .slt (iota .tc S256x4159 32 [1] iota_S256x4159_d1_w32) (broadcast S256x4159 (BitVec.ofNat 32 s)))
    (broadcast S256x4159 (Scalar.ofBits (F := Ideal) .f32 0xF149F2CA#32))
    (dynamicRotate 1 (BitVec.ofNat 32 s) none z rotates_S256x4159_d1))

/-- A small number read as a signed 32-bit word is itself. -/
theorem toInt_ofNat_small {a : ℕ} (h : a < 4159) : (BitVec.ofNat 32 a).toInt = (a : ℤ) := by
  have hn : (BitVec.ofNat 32 a).toNat = a := by
    rw [BitVec.toNat_ofNat]; exact Nat.mod_eq_of_lt (by omega)
  rw [BitVec.toInt_eq_toNat_of_lt (by rw [hn]; omega), hn]

/-- From entry `s` on, a round joins an entry with the one `s` places before it. -/
theorem round_apply (s : ℕ) (hs : s ≤ 64) (z : FVec Ideal S256x4159 .f32) (r : Fin 256) (i : Fin 4159)
    (hi : s ≤ i.val) :
    round s z (ix2 r i) = max (z (ix2 r i)) (z (ix2 r ⟨i.val - s, by omega⟩)) := by
  have hlt : i.val < 4159 := i.isLt
  have hc : IntOp.cmpi .slt (BitVec.ofNat 32 i.val) (BitVec.ofNat 32 s) = 0#1 := by
    apply eq_zero_of_ne_one
    rw [IntOp.cmpi_slt, toInt_ofNat_small hlt, toInt_ofNat_small (by omega)]
    omega
  have hrot : dynamicRotate 1 (BitVec.ofNat 32 s) none z rotates_S256x4159_d1 (ix2 r i)
      = z (ix2 r ⟨i.val - s, by omega⟩) := by
    refine dynamicRotate_apply (1 : Fin 2) (BitVec.ofNat 32 s) z rotates_S256x4159_d1 _ _ ?_
    intro b
    match b with
    | ⟨0, _⟩ => rfl
    | ⟨1, _⟩ =>
      show i.val - s = (i.val + 4159 - (BitVec.ofNat 32 s).toNat % 4159) % 4159
      rw [BitVec.toNat_ofNat, Nat.mod_eq_of_lt (show s < 2 ^ 32 by omega)]
      omega
  show max (z (ix2 r i)) (Scalar.select (IntOp.cmpi .slt (iota .tc S256x4159 32 [1] iota_S256x4159_d1_w32 (ix2 r i))
      (BitVec.ofNat 32 s)) _ (dynamicRotate 1 (BitVec.ofNat 32 s) none z rotates_S256x4159_d1 (ix2 r i))) = _
  rw [iota_single_apply, hrot]
  show max (z (ix2 r i)) (Scalar.select (IntOp.cmpi .slt (BitVec.ofNat 32 i.val) (BitVec.ofNat 32 s)) _ _) = _
  rw [hc, select_zero]

/-- After rounds of total reach `s`: the last entry of every window of `s` entries inside a row holds the
    window's supremum of the rows of `y`. -/
def Reach (s : ℕ) (z y : FVec Ideal S256x4159 .f32) : Prop :=
  ∀ (r : Fin 256) (B : ℕ) (i : Fin 4159), i.val + 1 = B + s →
    z (ix2 r i) = (Finset.range s).sup fun d => row2 y r (B + d)

theorem reach_one (y : FVec Ideal S256x4159 .f32) : Reach 1 y y := by
  intro r B i hi
  have hB : B = i.val := by omega
  subst hB
  rw [Finset.range_one, Finset.sup_singleton, Nat.add_zero, row2_of_lt y r i.isLt]

/-- A round of shift `s` on top of reach `s` gives reach `2 s`. -/
theorem reach_round (s : ℕ) (hs : s ≤ 64) {z y : FVec Ideal S256x4159 .f32} (h : Reach s z y) :
    Reach (s + s) (round s z) y := by
  intro r B i hi
  have hlt : i.val < 4159 := i.isLt
  rw [round_apply s hs z r i (by omega), h r (B + s) i (by omega), h r B ⟨i.val - s, by omega⟩ (by show i.val - s + 1 = B + s; omega),
    max_comm]
  have e := sup_range_add (fun d => row2 y r (B + d)) s
  simp only [Nat.add_assoc] at e ⊢
  exact e

/-- The stored slice of rows of reach 64: entry `t` is the window maximum from `t`. -/
theorem slice_of_reach {z y : FVec Ideal S256x4159 .f32} (h : Reach 64 z y) (r : Fin 256) (t : Fin 4096) :
    extractStridedSlice S256x4096 ![0, 63] z slices_S256x4159_o0_63_S256x4096 (ix2 r t) = winSup (row2 y r) t.val := by
  have hlt : t.val < 4096 := t.isLt
  refine (extractStridedSlice_apply ![0, 63] z slices_S256x4159_o0_63_S256x4096 (ix2 r t)
    (ix2 r (⟨63 + t.val, by omega⟩ : Fin 4159)) ?_).trans ?_
  · intro a
    match a with
    | ⟨0, _⟩ => show r.val = 0 + r.val; omega
    | ⟨1, _⟩ => rfl
  · exact h r t.val ⟨63 + t.val, by omega⟩ (by show 63 + t.val + 1 = t.val + 64; omega)

/-- Six rounds from the block itself. -/
def rounds (y : FVec Ideal S256x4159 .f32) : FVec Ideal S256x4159 .f32 :=
  round 32 (round 16 (round 8 (round 4 (round 2 (round 1 y)))))

theorem reach_rounds (y : FVec Ideal S256x4159 .f32) : Reach 64 (rounds y) y :=
  reach_round 32 (by omega) (reach_round 16 (by omega) (reach_round 8 (by omega) (reach_round 4 (by omega)
    (reach_round 2 (by omega) (reach_round 1 (by omega) (reach_one y))))))

/-! ## The two bodies' stores -/

/-- The first kernel stores the slice of six rounds of its block. -/
theorem store0_eq (x : Vec Ideal S256x4159 .f32) :
    k0_pay1 (k0_pay2 x) (k0_pay3 x) (iota .tc S256x4159 32 [1] iota_S256x4159_d1_w32) (k0_pay4)
      = extractStridedSlice S256x4096 ![0, 63] (rounds x) slices_S256x4159_o0_63_S256x4096 := by
  unfold k0_pay1 k0_pay3 k0_pay4 k0_pay2
  rw [shapeCast_self]
  rfl

/-- The first kernel's store at `(r, t)`: the window maximum of row `r` of the block from `t`. -/
theorem store0_apply (x : Vec Ideal S256x4159 .f32) (r : Fin 256) (t : Fin 4096) :
    k0_pay1 (k0_pay2 x) (k0_pay3 x) (iota .tc S256x4159 32 [1] iota_S256x4159_d1_w32) (k0_pay4) (ix2 r t)
      = winSup (row2 x r) t.val := by
  rw [store0_eq]
  exact slice_of_reach (reach_rounds x) r t

/-- A kernel's `0 - x` is `-x`, at the infinities too. -/
theorem zero_sub_apply {s : Shape} (x : FVec Ideal s .f32) (j : s.Idx) :
    subf (broadcast s (Scalar.ofBits (F := Ideal) .f32 0x00000000#32)) x j = -(x j) :=
  Ideal.subf_zero_eq_hostNegf (x j)

/-- The second kernel stores the negated slice of six rounds of its negated block. -/
theorem store1_eq (x : Vec Ideal S256x4159 .f32) :
    k1_pay1 (k1_pay2 x) (k1_pay3 x)
      = subf (broadcast S256x4096 (Scalar.ofBits (F := Ideal) .f32 0x00000000#32))
          (extractStridedSlice S256x4096 ![0, 63]
            (rounds (subf (broadcast S256x4159 (Scalar.ofBits (F := Ideal) .f32 0x00000000#32)) x))
            slices_S256x4159_o0_63_S256x4096) := by
  unfold k1_pay1 k1_pay3 k1_pay2
  rw [shapeCast_self]
  rfl

/-- The second kernel's store at `(r, t)`: the window MINIMUM of row `r` of the block from `t`, as the negated
    window maximum of the negated row. -/
theorem store1_apply (x : Vec Ideal S256x4159 .f32) (r : Fin 256) (t : Fin 4096) :
    k1_pay1 (k1_pay2 x) (k1_pay3 x) (ix2 r t) = -winSup (fun u => -row2 x r u) t.val := by
  have hlt : t.val < 4096 := t.isLt
  rw [store1_eq, zero_sub_apply, slice_of_reach (reach_rounds _) r t]
  refine congrArg Neg.neg (winSup_congr fun k hk => ?_)
  rw [row2_of_lt _ r (show t.val + k < 4159 by omega), row2_of_lt x r (show t.val + k < 4159 by omega)]
  exact zero_sub_apply x _

end Cert.KernelIdeal.Rounds

end
-- ==== Proof.KernelArrays.lean ====
/-
  What the kernel program's arrays hold after the run.

  Each region tiles its 4096-row matrices by 16 blocks of 256 rows: block `t` of the input is rows
  `256 t … 256 t + 255` of the input matrix, and what point `t` writes back is those rows of ONE whole-matrix
  function of the input matrix — for the first region the window maxima of the rows, for the second the window
  minima — so the output matrix ends holding that function (its blocks cover it). The host stretches around
  the regions are reshapes and concatenations of what is there. Read through the whole of @main, the result
  array is the reshape of the second region's matrix, and row by row that is the cascade of the arguments.
-/
import proofs.«141203_j2267742732763_1_alg».proof.Proof.Rows
import proofs.«141203_j2267742732763_1_alg».proof.Proof.ShiftMax
import proofs.«141203_j2267742732763_1_alg».proof.Proof.Gen.KernelIdeal.Frame
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.Cascade Cert.KernelIdeal.Rounds

theorem hz : (![0, 0] : Fin 2 → Nat) = fun _ => 0 := funext fun a => by fin_cases a <;> rfl

section Regions
variable (V : (c : Dev nD) → (b : Ref sig .tc) → Buf (Elt Ideal) ((c : Thread nD τ).loc b))

/-! ## The first region -/

/-- The first region's input matrix as it finds it. -/
abbrev in0 (c : Dev nD) : Vec Ideal S4096x4159 .f32 := V c main_v3

/-- What the first region leaves in its output matrix: at `(R, t)` the window maximum of row `R` of the input. -/
def G0 (c : Dev nD) : Vec Ideal S4096x4096 .f32 := fun i => winSup (row2 (in0 V c) (i 0)) (i 1).val

/-- Both windows' block index at point `t` is `(t, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of input block `t` is row `256 t + r` of the input matrix. -/
theorem iblk0_row (c : Dev nD) (t : Fin cfg0.N) (r : Fin 256) (R : Fin 4096) (hR : R.val = 256 * t.val + r.val) :
    row2 (iblk0 V c 0 t : Vec Ideal S256x4159 .f32) r = row2 (in0 V c) R := by
  obtain ⟨e0, e1, -, -⟩ := idx0 t
  funext u
  unfold row2
  by_cases hu : u < 4159
  · rw [dif_pos hu, dif_pos hu]
    show V c main_v3 (((cfg0.win 0).blk t).view.emb (ix2 r ⟨u, hu⟩)) = V c main_v3 (ix2 R ⟨u, hu⟩)
    refine congrArg (V c main_v3) (funext fun a => Fin.ext ?_)
    match a with
    | ⟨0, _⟩ => show win0_0.index t (0 : Fin 2) * 256 + 1 * r.val = R.val; omega
    | ⟨1, _⟩ => show win0_0.index t (1 : Fin 2) * 4159 + 1 * u = u; omega
  · rw [dif_neg hu, dif_neg hu]

/-- What point `t` writes back is block `t` of `G0`. -/
theorem flushed0 (c : Dev nD) (t : Fin cfg0.N) :
    (dat0 V c).flushed 1 t = ((cfg0.win 1).blk t).view.read (Elt Ideal) (G0 V c) := by
  show (cfg0.win 1).cut (grid0.coords t) ((dat0 V c).after 1 t) = _
  rw [after0_1]
  unfold out0_1
  rw [View.canon_unit_zero hz]
  simp only [View.ld_unit_zero (S := S256x4159) hz]
  obtain ⟨-, -, e2, e3⟩ := idx0 t
  have ht : t.val < 16 := lt_of_lt_of_eq t.isLt N_0
  funext j
  obtain ⟨r, u, rfl⟩ : ∃ (r : Fin 256) (u : Fin 4096), j = ix2 r u := ⟨j 0, j 1, eq_ix2 j⟩
  have hr : r.val < 256 := r.isLt
  have hemb : ((cfg0.win 1).blk t).view.emb (ix2 r u) = ix2 (⟨256 * t.val + r.val, by omega⟩ : Fin 4096) u := by
    funext a
    apply Fin.ext
    match a with
    | ⟨0, _⟩ => show win0_1.index t (0 : Fin 2) * 256 + 1 * r.val = 256 * t.val + r.val; omega
    | ⟨1, _⟩ => show win0_1.index t (1 : Fin 2) * 4096 + 1 * u.val = u.val; omega
  show k0_pay1 (k0_pay2 (iblk0 V c 0 t)) (k0_pay3 (iblk0 V c 0 t)) (iota .tc S256x4159 32 [1] iota_S256x4159_d1_w32) k0_pay4 (ix2 r u)
    = G0 V c (((cfg0.win 1).blk t).view.emb (ix2 r u))
  rw [hemb]
  refine (store0_apply (iblk0 V c 0 t) r u).trans ?_
  show winSup (row2 (iblk0 V c 0 t : Vec Ideal S256x4159 .f32) r) u.val = winSup (row2 (in0 V c) _) u.val
  rw [iblk0_row V c t r ⟨256 * t.val + r.val, by omega⟩ rfl]

/-- An index of the output matrix is in point `t`'s block iff each coordinate is in the block's range. -/
theorem mem_blk0 (t : Fin cfg0.N) (i : S4096x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v4).slice (win0_1.rect t)).set ↔ _
  rw [View.set_slice_whole, Rect.mem_set_unit]
  exact Iff.rfl

/-- The first region's output matrix after the run: row `R` is covered by point `R / 256`. -/
theorem final0 (c : Dev nD) : (dat0 V c).arrAt 1 cfg0.N = G0 V c :=
  (dat0 V c).arrAt_eq_of_cover 1 (G0 V c) (fun t _ => flushed0 V c t) fun i => by
    have hi0 : (i 0).val < 4096 := (i 0).isLt
    have hi1 : (i 1).val < 4096 := (i 1).isLt
    have hN : cfg0.N = 16 := N_0
    obtain ⟨t, et⟩ : ∃ t : Fin cfg0.N, t.val = (i 0).val / 256 := ⟨⟨(i 0).val / 256, by rw [hN]; omega⟩, rfl⟩
    obtain ⟨-, -, e2, e3⟩ := idx0 t
    refine ⟨t, flush0_1 t, ?_⟩
    rw [mem_blk0]
    intro a
    match a with
    | ⟨0, _⟩ => show win0_1.index t (0 : Fin 2) * 256 ≤ (i 0).val ∧ (i 0).val < win0_1.index t (0 : Fin 2) * 256 + 256; omega
    | ⟨1, _⟩ => show win0_1.index t (1 : Fin 2) * 4096 ≤ (i 1).val ∧ (i 1).val < win0_1.index t (1 : Fin 2) * 4096 + 4096; omega

/-! ## The second region -/

/-- The second region's input matrix as it finds it. -/
abbrev in1 (c : Dev nD) : Vec Ideal S4096x4159 .f32 := V c main_v5

/-- What the second region leaves in its output matrix: at `(R, t)` the window minimum of row `R` of the input, as
    the negated window maximum of the negated row. -/
def G1 (c : Dev nD) : Vec Ideal S4096x4096 .f32 := fun i => -winSup (fun u => -row2 (in1 V c) (i 0) u) (i 1).val

/-- Both windows' block index at point `t` is `(t, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `r` of input block `t` is row `256 t + r` of the input matrix. -/
theorem iblk1_row (c : Dev nD) (t : Fin cfg1.N) (r : Fin 256) (R : Fin 4096) (hR : R.val = 256 * t.val + r.val) :
    row2 (iblk1 V c 0 t : Vec Ideal S256x4159 .f32) r = row2 (in1 V c) R := by
  obtain ⟨e0, e1, -, -⟩ := idx1 t
  funext u
  unfold row2
  by_cases hu : u < 4159
  · rw [dif_pos hu, dif_pos hu]
    show V c main_v5 (((cfg1.win 0).blk t).view.emb (ix2 r ⟨u, hu⟩)) = V c main_v5 (ix2 R ⟨u, hu⟩)
    refine congrArg (V c main_v5) (funext fun a => Fin.ext ?_)
    match a with
    | ⟨0, _⟩ => show win1_0.index t (0 : Fin 2) * 256 + 1 * r.val = R.val; omega
    | ⟨1, _⟩ => show win1_0.index t (1 : Fin 2) * 4159 + 1 * u = u; omega
  · rw [dif_neg hu, dif_neg hu]

/-- What point `t` writes back is block `t` of `G1`. -/
theorem flushed1 (c : Dev nD) (t : Fin cfg1.N) :
    (dat1 V c).flushed 1 t = ((cfg1.win 1).blk t).view.read (Elt Ideal) (G1 V c) := by
  show (cfg1.win 1).cut (grid1.coords t) ((dat1 V c).after 1 t) = _
  rw [after1_1]
  unfold out1_1
  rw [View.canon_unit_zero hz]
  simp only [View.ld_unit_zero (S := S256x4159) hz]
  obtain ⟨-, -, e2, e3⟩ := idx1 t
  have ht : t.val < 16 := lt_of_lt_of_eq t.isLt N_1
  funext j
  obtain ⟨r, u, rfl⟩ : ∃ (r : Fin 256) (u : Fin 4096), j = ix2 r u := ⟨j 0, j 1, eq_ix2 j⟩
  have hr : r.val < 256 := r.isLt
  have hemb : ((cfg1.win 1).blk t).view.emb (ix2 r u) = ix2 (⟨256 * t.val + r.val, by omega⟩ : Fin 4096) u := by
    funext a
    apply Fin.ext
    match a with
    | ⟨0, _⟩ => show win1_1.index t (0 : Fin 2) * 256 + 1 * r.val = 256 * t.val + r.val; omega
    | ⟨1, _⟩ => show win1_1.index t (1 : Fin 2) * 4096 + 1 * u.val = u.val; omega
  show k1_pay1 (k1_pay2 (iblk1 V c 0 t)) (k1_pay3 (iblk1 V c 0 t)) (ix2 r u)
    = G1 V c (((cfg1.win 1).blk t).view.emb (ix2 r u))
  rw [hemb]
  refine (store1_apply (iblk1 V c 0 t) r u).trans ?_
  show -winSup (fun u' => -row2 (iblk1 V c 0 t : Vec Ideal S256x4159 .f32) r u') u.val
    = -winSup (fun u' => -row2 (in1 V c) _ u') u.val
  rw [iblk1_row V c t r ⟨256 * t.val + r.val, by omega⟩ rfl]

theorem mem_blk1 (t : Fin cfg1.N) (i : S4096x4096.Idx) :
    i ∈ ((cfg1.win 1).blk t).view.set ↔ ∀ a : Fin 2, win1_1.index t a * S256x4096.size a ≤ (i a).val
      ∧ (i a).val < win1_1.index t a * S256x4096.size a + S256x4096.size a := by
  show i ∈ ((View.whole main_v6).slice (win1_1.rect t)).set ↔ _
  rw [View.set_slice_whole, Rect.mem_set_unit]
  exact Iff.rfl

/-- The second region's output matrix after the run. -/
theorem final1 (c : Dev nD) : (dat1 V c).arrAt 1 cfg1.N = G1 V c :=
  (dat1 V c).arrAt_eq_of_cover 1 (G1 V c) (fun t _ => flushed1 V c t) fun i => by
    have hi0 : (i 0).val < 4096 := (i 0).isLt
    have hi1 : (i 1).val < 4096 := (i 1).isLt
    have hN : cfg1.N = 16 := N_1
    obtain ⟨t, et⟩ : ∃ t : Fin cfg1.N, t.val = (i 0).val / 256 := ⟨⟨(i 0).val / 256, by rw [hN]; omega⟩, rfl⟩
    obtain ⟨-, -, e2, e3⟩ := idx1 t
    refine ⟨t, flush1_1 t, ?_⟩
    rw [mem_blk1]
    intro a
    match a with
    | ⟨0, _⟩ => show win1_1.index t (0 : Fin 2) * 256 ≤ (i 0).val ∧ (i 0).val < win1_1.index t (0 : Fin 2) * 256 + 256; omega
    | ⟨1, _⟩ => show win1_1.index t (1 : Fin 2) * 4096 ≤ (i 1).val ∧ (i 1).val < win1_1.index t (1 : Fin 2) * 4096 + 4096; omega

end Regions

/-! ## Through @main -/

variable (m : (ℓ : Loc nD τ sig) → Buf (Elt Ideal) ℓ) (ρ : Dev nD → PrngReg)

/-- The first region's input: the reshaped carried samples in front of the reshaped samples. -/
theorem entry0 (c : Dev nD) : in0 (V1 m ρ) c
    = concatenate S4096x4159 1 [⟨S4096x63, shapeCast S4096x63 (m ((c : Thread nD τ).loc main_arg1)) shapeCasts_S64x64x63_S4096x63⟩,
        ⟨S4096x4096, shapeCast S4096x4096 (m ((c : Thread nD τ).loc main_arg0)) shapeCasts_S64x64x4096_S4096x4096⟩]
        concatenates_S4096x63_S4096x4096_S4096x4159_d1 := by
  show StableHlo.after hostOps0 (W0 m ρ c) (Proc.devRef .tc main_v3) = _
  after_results
  rfl

/-- The reshaped carried maxima pass the first region untouched. -/
theorem carried_kept (c : Dev nD) : W2 m ρ c (Proc.devRef .tc main_v2)
    = shapeCast S4096x63 (m ((c : Thread nD τ).loc main_arg2)) shapeCasts_S64x64x63_S4096x63 := by
  rw [W2_of_ne m ρ c main_v2 (by decide)]
  show StableHlo.after hostOps0 (W0 m ρ c) (Proc.devRef .tc main_v2) = _
  after_results
  rfl

/-- The second region's input: the reshaped carried maxima in front of the first region's result. -/
theorem entry1 (c : Dev nD) : in1 (V3 m ρ) c
    = concatenate S4096x4159 1 [⟨S4096x63, shapeCast S4096x63 (m ((c : Thread nD τ).loc main_arg2)) shapeCasts_S64x64x63_S4096x63⟩,
        ⟨S4096x4096, G0 (V1 m ρ) c⟩] concatenates_S4096x63_S4096x4096_S4096x4159_d1 := by
  show StableHlo.after hostOps1 (W2 m ρ c) (Proc.devRef .tc main_v5) = _
  after_results
  rw [carried_kept m ρ c, show W2 m ρ c (Proc.devRef .tc main_v4) = (dat0 (V1 m ρ) c).arrAt 1 cfg0.N from W2_arr m ρ c 1,
    final0 (V1 m ρ) c]

/-- THE RESULT ARRAY after the run is the cascade of the arguments, index by index. -/
theorem result_eq (c : Dev nD) : W5 m ρ c (Proc.devRef .tc main_v7)
    = result (m ((c : Thread nD τ).loc main_arg0)) (m ((c : Thread nD τ).loc main_arg1)) (m ((c : Thread nD τ).loc main_arg2)) := by
  have e5 : W5 m ρ c (Proc.devRef .tc main_v7)
      = shapeCast S64x64x4096 (W4 m ρ c (Proc.devRef .tc main_v6)) shapeCasts_S4096x4096_S64x64x4096 := by
    show StableHlo.after hostOps2 (W4 m ρ c) (Proc.devRef .tc main_v7) = _
    after_results
    rfl
  rw [e5, show W4 m ρ c (Proc.devRef .tc main_v6) = (dat1 (V3 m ρ) c).arrAt 1 cfg1.N from W4_arr m ρ c 1, final1 (V3 m ρ) c]
  refine result_of_matrices _ _ _ shapeCasts_S64x64x4096_S4096x4096 shapeCasts_S64x64x63_S4096x63
    concatenates_S4096x63_S4096x4096_S4096x4159_d1 shapeCasts_S4096x4096_S64x64x4096 (G0 (V1 m ρ) c) (G1 (V3 m ρ) c) ?_ ?_
  · intro R t
    show winSup (row2 (in0 (V1 m ρ) c) R) t.val = _
    rw [entry0 m ρ c]
  · intro R t
    show -winSup (fun u => -row2 (in1 (V3 m ρ) c) R u) t.val = _
    rw [entry1 m ρ c]

end Cert.KernelIdeal.Arrays

end
-- ==== Proof.lean ====
/-
  A causal moving maximum over 64 samples followed by a causal moving minimum over 64 samples, per (batch,
  channel) row, with 63 carried entries in front of each stage's row.

  The reference computes each stage as a `reduce_window` from `-∞`; the kernel computes each stage, on blocks of
  256 rows, by six shift-and-max rounds with shifts 1, 2, 4, 8, 16, 32 and keeps entries 63 … 4158 of every row.
  On the extended reals both are, at `(b, c, t)`, the cascade `Cascade.result`:
    - a fold of `max` from the bottom element over a window is the window's supremum (Proof/Cascade.lean,
      Proof/RefWindow.lean);
    - after rounds of total reach `s` the last entry of every window of `s` entries inside a row is the window's
      supremum, because a supremum over `2 s` consecutive entries is the larger of those over its halves; the
      finite filler the kernel uses where a shift would wrap reaches only entries the stored slice drops
      (Proof/ShiftMax.lean);
    - the kernel's matrices of 4096 rows are the rank-3 arrays row by row (Proof/Rows.lean), and its output blocks
      tile them (Proof/KernelArrays.lean);
    - the minimum stage is negate, maximum, negate on both sides, the kernel's negation spelt `0 - x`.
  Only order and negation of extended reals are used, so the precondition (finite inputs) is never opened. The three
  frames are the generated ones (the reference's is its generated run with the result dropped); the idealization
  rewrote nothing, so `preserves` is trivial.
-/
import proofs.«141203_j2267742732763_1_alg».proof.Defs
import proofs.«141203_j2267742732763_1_alg».proof.Proof.Gen.Kernel
import proofs.«141203_j2267742732763_1_alg».proof.Proof.Gen.Kernel.Skeleton
import proofs.«141203_j2267742732763_1_alg».proof.Proof.Gen.Kernel.Launch
import proofs.«141203_j2267742732763_1_alg».proof.Proof.Gen.Kernel.Points
import proofs.«141203_j2267742732763_1_alg».proof.Proof.Gen.Kernel.Frame
import proofs.«141203_j2267742732763_1_alg».proof.Proof.Gen.KernelIdeal
import proofs.«141203_j2267742732763_1_alg».proof.Proof.Gen.KernelIdeal.Skeleton
import proofs.«141203_j2267742732763_1_alg».proof.Proof.Gen.KernelIdeal.Launch
import proofs.«141203_j2267742732763_1_alg».proof.Proof.Gen.KernelIdeal.Points
import proofs.«141203_j2267742732763_1_alg».proof.Proof.Gen.KernelIdeal.Frame
import proofs.«141203_j2267742732763_1_alg».proof.Proof.Gen.ReferenceIdeal
import proofs.«141203_j2267742732763_1_alg».proof.Proof.Gen.Pre_finite_inputs
import proofs.«141203_j2267742732763_1_alg».proof.Proof.Gen.ReferenceIdeal.Run
import proofs.«141203_j2267742732763_1_alg».proof.Proof.Gen.ReferenceIdeal.Read
import proofs.«141203_j2267742732763_1_alg».proof.Proof.Cascade
import proofs.«141203_j2267742732763_1_alg».proof.Proof.RefWindow
import proofs.«141203_j2267742732763_1_alg».proof.Proof.KernelRun
import proofs.«141203_j2267742732763_1_alg».proof.Proof.KernelArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the cascade of the arguments' rows: the kernel program by its run
    read through @main, the reference by its run read at an index; the arguments agree. -/
theorem algebraic : Cert.algebraic_KernelIdeal_ReferenceIdeal := by
  intro m ρ m' ρ' _ hagree
  refine ⟨fun c => Cert.Cascade.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Arrays.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.Window.value_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
